-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S4194304x6 : Shape := ⟨2, ![4194304, 6]⟩
abbrev S4194304 : Shape := ⟨1, ![4194304]⟩

class Facts : Prop where
  reducesTo_S_S_d : S_.ReducesTo [] S_
  h_S_ : 0 < S_.numel
  bcast_S_S4194304x6 : S_.BroadcastsInDim S4194304x6 (![] : Fin 0 → Fin S4194304x6.rank)
  reducesTo_S4194304x6_S_d0_1 : S4194304x6.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg4 : FVec F S4194304 .f32) (main_arg5 : FVec F S4194304 .f32) (main_arg6 : FVec F S4194304 .f32) (main_v12 : IVec S_ 1) (main_v15 : IVec S4194304 1) (main_c_5 : IVec S_ 1) : IVec S_ 1 :=
  let main_v16 : IVec S_ 1 := (fun x v => Host.reduce IntOp.andi x v reducesTo_S4194304_S_d0 h_S_) main_v15 main_c_5
  let main_v17 : IVec S_ 1 := andi main_v12 main_v16
  let main_v18 : FVec F S4194304 .f32 := Host.absf main_arg4
  let main_cst_6 : FVec F S_ .f32 := constant S_ .f32 0x7F800000#32
  let main_v19 : FVec F S4194304 .f32 := broadcastInDim S4194304 ![] bcast_S_S4194304 main_cst_6
  let main_v20 : IVec S4194304 1 := cmpf .olt main_v18 main_v19
  let main_c_7 : IVec S_ 1 := constantI S_ 1 1#1
  let main_v21 : IVec S_ 1 := (fun x v => Host.reduce IntOp.andi x v reducesTo_S4194304_S_d0 h_S_) main_v20 main_c_7
  let main_v22 : IVec S_ 1 := andi main_v17 main_v21
  let main_v23 : FVec F S4194304 .f32 := Host.absf main_arg5
  let main_cst_8 : FVec F S_ .f32 := constant S_ .f32 0x7F800000#32
  let main_v24 : FVec F S4194304 .f32 := broadcastInDim S4194304 ![] bcast_S_S4194304 main_cst_8
  let main_v25 : IVec S4194304 1 := cmpf .olt main_v23 main_v24
  let main_c_9 : IVec S_ 1 := constantI S_ 1 1#1
  let main_v26 : IVec S_ 1 := (fun x v => Host.reduce IntOp.andi x v reducesTo_S4194304_S_d0 h_S_) main_v25 main_c_9
  let main_v27 : IVec S_ 1 := andi main_v22 main_v26
  let main_v28 : FVec F S4194304 .f32 := Host.absf main_arg6
  let main_cst_10 : FVec F S_ .f32 := constant S_ .f32 0x7F800000#32
  let main_v29 : FVec F S4194304 .f32 := broadcastInDim S4194304 ![] bcast_S_S4194304 main_cst_10
  let main_v30 : IVec S4194304 1 := cmpf .olt main_v28 main_v29
  let main_c_11 : IVec S_ 1 := constantI S_ 1 1#1
  let main_v31 : IVec S_ 1 := (fun x v => Host.reduce IntOp.andi x v reducesTo_S4194304_S_d0 h_S_) main_v30 main_c_11
  let main_v32 : IVec S_ 1 := andi main_v27 main_v31
  main_v32

def fn {F : FTy → Type} [FloatOps F] (main_arg0 : FVec F S_ .f32) (main_arg1 : FVec F S4194304x6 .f32) (main_arg2 : FVec F S4194304 .f32) (main_arg3 : FVec F S4194304 .f32) (main_arg4 : FVec F S4194304 .f32) (main_arg5 : FVec F S4194304 .f32) (main_arg6 : FVec F S4194304 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S4194304x6 .f32 := Host.absf main_arg1
  let main_cst_0 : FVec F S_ .f32 := constant S_ .f32 0x7F800000#32
  let main_v4 : FVec F S4194304x6 .f32 := broadcastInDim S4194304x6 ![] bcast_S_S4194304x6 main_cst_0
  let main_v5 : IVec S4194304x6 1 := cmpf .olt main_v3 main_v4
  let main_c_1 : IVec S_ 1 := constantI S_ 1 1#1
  let main_v6 : IVec S_ 1 := (fun x v => Host.reduce IntOp.andi x v reducesTo_S4194304x6_S_d0_1 h_S_) main_v5 main_c_1
  let main_v7 : IVec S_ 1 := andi main_v2 main_v6
  let main_v8 : FVec F S4194304 .f32 := Host.absf main_arg2
  let main_cst_2 : FVec F S_ .f32 := constant S_ .f32 0x7F800000#32
  let main_v9 : FVec F S4194304 .f32 := broadcastInDim S4194304 ![] bcast_S_S4194304 main_cst_2
  let main_v10 : IVec S4194304 1 := cmpf .olt main_v8 main_v9
  let main_c_3 : IVec S_ 1 := constantI S_ 1 1#1
  let main_v11 : IVec S_ 1 := (fun x v => Host.reduce IntOp.andi x v reducesTo_S4194304_S_d0 h_S_) main_v10 main_c_3
  let main_v12 : IVec S_ 1 := andi main_v7 main_v11
  let main_v13 : FVec F S4194304 .f32 := Host.absf main_arg3
  let main_cst_4 : FVec F S_ .f32 := constant S_ .f32 0x7F800000#32
  let main_v14 : FVec F S4194304 .f32 := broadcastInDim S4194304 ![] bcast_S_S4194304 main_cst_4
  let main_v15 : IVec S4194304 1 := cmpf .olt main_v13 main_v14
  let main_c_5 : IVec S_ 1 := constantI S_ 1 1#1
  fn_part1 (F := F) main_arg4 main_arg5 main_arg6 main_v12 main_v15 main_c_5
-- ==== Kernel.lean ====
abbrev S_ : Shape := ⟨0, ![]⟩
abbrev S4194304x6 : Shape := ⟨2, ![4194304, 6]⟩
abbrev S4194304 : Shape := ⟨1, ![4194304]⟩
abbrev S8192x6 : Shape := ⟨2, ![8192, 6]⟩
abbrev S8192 : Shape := ⟨1, ![8192]⟩
abbrev S8192x1 : Shape := ⟨2, ![8192, 1]⟩

abbrev nBuf : Space → Nat
  | .hbm => 8
  | .vmem => 14
  | .smem => 0
  | _ => 0

abbrev bufTy : (tb : Table) → Fin (tcTables nBuf tb) → BufTy
  | .hbm, ⟨0, _⟩ => ⟨S_, .f32⟩
  | .hbm, ⟨1, _⟩ => ⟨S4194304x6, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304x6, .f32⟩
  | .local _ .vmem, ⟨0, _⟩ => ⟨S8192x6, .f32⟩
  | .local _ .vmem, ⟨1, _⟩ => ⟨S8192x6, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | .local _ .vmem, ⟨9, _⟩ => ⟨S8192, .f32⟩
  | .local _ .vmem, ⟨10, _⟩ => ⟨S8192, .f32⟩
  | .local _ .vmem, ⟨11, _⟩ => ⟨S8192, .f32⟩
  | .local _ .vmem, ⟨12, _⟩ => ⟨S8192x6, .f32⟩
  | .local _ .vmem, ⟨13, _⟩ => ⟨S8192x6, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8192x6_S8192x6_0_0 : ∀ a, (![0, 0] : Fin 2 → Nat) a + S8192x6.size a ≤ S8192x6.size a
  h_S8192x6 : 0 < S8192x6.numel
  slices_S8192x6_o0_0_S8192x1 : S8192x6.Slices ![0, 0] S8192x1
  shapeCasts_S8192x1_S8192 : S8192x1.ShapeCasts S8192
  slices_S8192x6_o0_1_S8192x1 : S8192x6.Slices ![0, 1] S8192x1
  slices_S8192x6_o0_2_S8192x1 : S8192x6.Slices ![0, 2] S8192x1
  slices_S8192x6_o0_3_S8192x1 : S8192x6.Slices ![0, 3] S8192x1
  slices_S8192x6_o0_4_S8192x1 : S8192x6.Slices ![0, 4] S8192x1
  slices_S8192x6_o0_5_S8192x1 : S8192x6.Slices ![0, 5] S8192x1
  inb_S8192_S8192_0 : ∀ a, (![0] : Fin 1 → Nat) a + S8192.size a ≤ S8192.size a
  h_S8192 : 0 < S8192.numel
  shapeCasts_S8192_S8192x1 : S8192.ShapeCasts S8192x1
  concatenates_S8192x1_S8192x1_S8192x1_S8192x1_S8192x1_S8192x1_S8192x6_d1 : Shape.Concatenates [S8192x1, S8192x1, S8192x1, S8192x1, S8192x1, S8192x1] S8192x6 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S4194304x6.size a
  hwx0_0 : ∀ i : grid0.Coords, EltTy.bits .f32 = 32 ∨ (Rect.block (s := S4194304x6) S8192x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4194304.size a
  hwx0_1 : ∀ i : grid0.Coords, EltTy.bits .f32 = 32 ∨ (Rect.block (s := S4194304) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S4194304.size a
  hwx0_2 : ∀ i : grid0.Coords, EltTy.bits .f32 = 32 ∨ (Rect.block (s := S4194304) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S4194304.size a
  hwx0_3 : ∀ i : grid0.Coords, EltTy.bits .f32 = 32 ∨ (Rect.block (s := S4194304) S8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S4194304.size a
  hwx0_4 : ∀ i : grid0.Coords, EltTy.bits .f32 = 32 ∨ (Rect.block (s := S4194304) S8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S4194304.size a
  hwx0_5 : ∀ i : grid0.Coords, EltTy.bits .f32 = 32 ∨ (Rect.block (s := S4194304) S8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x6.size a ≤ S4194304x6.size a
  hwx0_6 : ∀ i : grid0.Coords, EltTy.bits .f32 = 32 ∨ (Rect.block (s := S4194304x6) S8192x6.size (cc0_transform_6 i) (hinb0_6 i)).WholeWords (EltTy.packing .f32)

variable [Facts₀]

abbrev win0_0 : Pipeline.Window sig grid0 :=
  Pipeline.Window.ofSpec (Memref.whole main_arg1) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8192x6.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S_ : Shape := ⟨0, ![]⟩
abbrev S4194304x6 : Shape := ⟨2, ![4194304, 6]⟩
abbrev S4194304 : Shape := ⟨1, ![4194304]⟩
abbrev S4194304x1 : Shape := ⟨2, ![4194304, 1]⟩

abbrev nBuf : Space → Nat
  | .hbm => 46
  | .vmem => 0
  | .smem => 0
  | _ => 0

abbrev bufTy : (tb : Table) → Fin (tcTables nBuf tb) → BufTy
  | .hbm, ⟨0, _⟩ => ⟨S_, .f32⟩
  | .hbm, ⟨1, _⟩ => ⟨S4194304x6, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304x1, .f32⟩
  | .hbm, ⟨14, _⟩ => ⟨S4194304, .f32⟩
  | .hbm, ⟨15, _⟩ => ⟨S4194304x1, .f32⟩
  | .hbm, ⟨16, _⟩ => ⟨S4194304, .f32⟩
  | .hbm, ⟨17, _⟩ => ⟨S4194304x1, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S4194304, .f32⟩
  | .hbm, ⟨39, _⟩ => ⟨S4194304x1, .f32⟩
  | .hbm, ⟨40, _⟩ => ⟨S4194304x1, .f32⟩
  | .hbm, ⟨41, _⟩ => ⟨S4194304x1, .f32⟩
  | .hbm, ⟨42, _⟩ => ⟨S4194304x1, .f32⟩
  | .hbm, ⟨43, _⟩ => ⟨S4194304x1, .f32⟩
  | .hbm, ⟨44, _⟩ => ⟨S4194304x1, .f32⟩
  | .hbm, ⟨45, _⟩ => ⟨S4194304x6, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]

class Facts₀ : Prop where
  slices_S4194304x6_S4194304x1_0_0 : S4194304x6.Slices ![0, 0] S4194304x1
  shapeCasts_S4194304x1_S4194304 : S4194304x1.ShapeCasts S4194304
  slices_S4194304x6_S4194304x1_0_1 : S4194304x6.Slices ![0, 1] S4194304x1
  slices_S4194304x6_S4194304x1_0_2 : S4194304x6.Slices ![0, 2] S4194304x1
  slices_S4194304x6_S4194304x1_0_3 : S4194304x6.Slices ![0, 3] S4194304x1
  slices_S4194304x6_S4194304x1_0_4 : S4194304x6.Slices ![0, 4] S4194304x1
  slices_S4194304x6_S4194304x1_0_5 : S4194304x6.Slices ![0, 5] S4194304x1
  bcast_S4194304_S4194304x1_0 : S4194304.BroadcastsInDim S4194304x1 (![0] : Fin 1 → Fin S4194304x1.rank)
  concatenates_S4194304x1_S4194304x1_S4194304x1_S4194304x1_S4194304x1_S4194304x1_S4194304x6_d1 : Shape.Concatenates [S4194304x1, S4194304x1, S4194304x1, S4194304x1, S4194304x1, S4194304x1] S4194304x6 1

variable [Facts₀]

class Facts : Prop extends Facts₀ where

variable [Facts]
-- ==== Proof.Rate.lean ====
/-
  The specification. One patient (one row) carries six compartment amounts a₀ … a₅ (depot, three transit
  compartments, central, peripheral) and five parameters: the transit rate ktr, the clearance cl, the
  inter-compartment flow q and the two volumes vc, vp. The model's right-hand side is

    da₀ = -ktr · a₀
    da₁ = ktr · (a₀ - a₁)      da₂ = ktr · (a₁ - a₂)      da₃ = ktr · (a₂ - a₃)
    da₄ = ktr · a₃ - (cl / vc + q / vc) · a₄ + (q / vp) · a₅
    da₅ = (q / vc) · a₄ - (q / vp) · a₅

  read on the extended reals with the operations grouped exactly as written (no law of arithmetic is used to
  regroup them, so nothing here needs the inputs to be finite). `rate k` is the k-th line, and `deriv` is the
  whole array of them: entry (r, k) is line k at row r of the state and entry r of each parameter.
-/
import Idealize.ShloMosaic.PureOps.Ideal
import Idealize.ShloMosaic.PureOps.Ideal.Laws
import Idealize.ShloMosaic.Lib.ValueIdx

noncomputable section

namespace Cert.Pk

open Idealize.ShloMosaic Idealize.ShloMosaic.ValueIdx

/-- Line `k` of the model's right-hand side at one row: `a` the row's six amounts, then the five parameters. -/
def rate (k : Fin 6) (a : Fin 6 → EReal) (ktr cl q vc vp : EReal) : EReal :=
  match k with
  | ⟨0, _⟩ => -ktr * a 0
  | ⟨1, _⟩ => ktr * (a 0 - a 1)
  | ⟨2, _⟩ => ktr * (a 1 - a 2)
  | ⟨3, _⟩ => ktr * (a 2 - a 3)
  | ⟨4, _⟩ => ktr * a 3 - (Ideal.div cl vc + Ideal.div q vc) * a 4 + Ideal.div q vp * a 5
  | ⟨5, _⟩ => Ideal.div q vc * a 4 - Ideal.div q vp * a 5
  | ⟨_ + 6, h⟩ => absurd h (by omega)

/-- `rate` respects equality of every argument (the amounts compared entry by entry). -/
theorem rate_congr {k k' : Fin 6} {a a' : Fin 6 → EReal} {x1 x2 x3 x4 x5 y1 y2 y3 y4 y5 : EReal}
    (hk : k = k') (ha : ∀ j, a j = a' j) (h1 : x1 = y1) (h2 : x2 = y2) (h3 : x3 = y3) (h4 : x4 = y4) (h5 : x5 = y5) :
    rate k a x1 x2 x3 x4 x5 = rate k' a' y1 y2 y3 y4 y5 := by
  subst hk h1 h2 h3 h4 h5
  exact congrArg (fun f => rate k f x1 x2 x3 x4 x5) (funext ha)

/-- Subtracting from the float zero is negation, on every extended real. -/
theorem zero_word_sub (x : EReal) : Ideal.ofBits .f32 0x00000000#32 - x = -x := by
  rw [Ideal.ofBits_zero_f32, zero_sub]

/-- The state array's shape, 4194304 rows of six amounts, and a parameter array's. -/
abbrev Rows : Shape := ⟨2, ![4194304, 6]⟩
abbrev Pats : Shape := ⟨1, ![4194304]⟩

/-- The whole result: entry `(r, k)` is line `k` of the right-hand side at row `r`. -/
def deriv (s : Rows.Idx → EReal) (ktr cl q vc vp : Pats.Idx → EReal) : Rows.Idx → EReal := fun i =>
  rate ⟨(i 1).val, (i 1).isLt⟩ (fun j => s (ix2 (⟨(i 0).val, (i 0).isLt⟩ : Fin 4194304) j))
    (ktr (ix1 (⟨(i 0).val, (i 0).isLt⟩ : Fin 4194304))) (cl (ix1 (⟨(i 0).val, (i 0).isLt⟩ : Fin 4194304)))
    (q (ix1 (⟨(i 0).val, (i 0).isLt⟩ : Fin 4194304))) (vc (ix1 (⟨(i 0).val, (i 0).isLt⟩ : Fin 4194304)))
    (vp (ix1 (⟨(i 0).val, (i 0).isLt⟩ : Fin 4194304)))

/-- `deriv` at the index built from a row and a column. -/
theorem deriv_ix2 (s : Rows.Idx → EReal) (ktr cl q vc vp : Pats.Idx → EReal) (r : Fin 4194304) (k : Fin 6) :
    deriv s ktr cl q vc vp (ix2 r k)
      = rate k (fun j => s (ix2 r j)) (ktr (ix1 r)) (cl (ix1 r)) (q (ix1 r)) (vc (ix1 r)) (vp (ix1 r)) := rfl

end Cert.Pk

end
-- ==== Proof.KernelBlock.lean ====
/-
  The kernel's block, entry by entry. At a grid point the body loads an 8192 × 6 block of the state and the five
  8192-entry parameter blocks, takes the six columns of the state block, forms the six lines of the right-hand side
  as 8192-vectors, and lays them side by side as the columns of the 8192 × 6 block it stores. So the stored block at
  `(r, k)` is line `k` at row `r` of the loaded blocks: `Pk.rate k`. The only place where the kernel's text and the
  specification's differ is the first line, where the kernel writes `0 - ktr` for `-ktr`.
-/
import proofs.«145431_j5961414607270_1_alg».proof.Proof.Gen.KernelIdeal.Value
import proofs.«145431_j5961414607270_1_alg».proof.Proof.Rate

noncomputable section

namespace Cert.KernelIdeal.Block

open Cert.KernelIdeal Cert.KernelIdeal.Gen Cert.KernelIdeal.Value Idealize.ShloMosaic Idealize.ShloMosaic.ValueIdx

/-- Column `o` of a block, flattened to a vector, read at row `r`: the block at `(r, o)`. -/
theorem col_read {α : Type} (x : S8192x6.Idx → α) (o : Nat) (ho : o < 6) (hs : S8192x6.Slices ![0, o] S8192x1)
    (hc : S8192x1.ShapeCasts S8192) (r : Fin 8192) :
    shapeCast S8192 (extractStridedSlice S8192x1 ![0, o] x hs) hc (ix1 r) = x (ix2 r (⟨o, ho⟩ : Fin 6)) := by
  refine (shapeCast_apply _ hc (ix1 r) (ix2 r (0 : Fin 1)) ?_).trans ?_
  · rw [Shape.rowMajor_val_two, Shape.rowMajor_val_one]; show r.val * 1 + 0 = r.val; omega
  · exact extractStridedSlice_apply ![0, o] x hs (ix2 r (0 : Fin 1)) (ix2 r (⟨o, ho⟩ : Fin 6)) (fun a => match a with
      | ⟨0, _⟩ => by show r.val = 0 + r.val; omega
      | ⟨1, _⟩ => by show o = o + 0; omega)

/-- A vector stood up as a one-column block, read at the block index under `(r, k)`: the vector at `r`. -/
theorem stand_read {α : Type} (v : S8192.Idx → α) (hc : S8192.ShapeCasts S8192x1) (r : Fin 8192) (k : Fin 6) :
    shapeCast S8192x1 v hc (ix6_0 (ix2 r k)) = v (ix1 r) := by
  refine shapeCast_apply v hc _ (ix1 r) ?_
  rw [Shape.rowMajor_val_two, Shape.rowMajor_val_one]; show r.val = r.val * 1 + 0; omega

/-- THE BLOCK AT `(r, k)`: line `k` of the right-hand side at row `r` of the loaded blocks (`P1` the state block; `P0`,
    `P2`, `P4`, `P3`, `P5` the blocks of ktr, cl, q, vc, vp). -/
theorem E6_at (P0 : Vec Ideal S8192 .f32) (P1 : Vec Ideal S8192x6 .f32) (P2 P3 P4 P5 : Vec Ideal S8192 .f32)
    (r : Fin 8192) (k : Fin 6) :
    E6 P0 P1 P2 P3 P4 P5 (ix2 r k)
      = Pk.rate k (fun j => P1 (ix2 r j)) (P0 (ix1 r)) (P2 (ix1 r)) (P4 (ix1 r)) (P3 (ix1 r)) (P5 (ix1 r)) := by
  match k with
  | ⟨0, _⟩ =>
    refine (stand_read _ shapeCasts_S8192_S8192x1 r _).trans ?_
    show (Ideal.ofBits .f32 0x00000000#32 - P0 (ix1 r)) * _ = -(P0 (ix1 r)) * P1 (ix2 r 0)
    rw [Pk.zero_word_sub, col_read P1 0 (by omega) _ _ r]
    rfl
  | ⟨1, _⟩ =>
    refine (stand_read _ shapeCasts_S8192_S8192x1 r _).trans ?_
    show P0 (ix1 r) * (_ - _) = P0 (ix1 r) * (P1 (ix2 r 0) - P1 (ix2 r 1))
    rw [col_read P1 0 (by omega) _ _ r, col_read P1 1 (by omega) _ _ r]
    rfl
  | ⟨2, _⟩ =>
    refine (stand_read _ shapeCasts_S8192_S8192x1 r _).trans ?_
    show P0 (ix1 r) * (_ - _) = P0 (ix1 r) * (P1 (ix2 r 1) - P1 (ix2 r 2))
    rw [col_read P1 1 (by omega) _ _ r, col_read P1 2 (by omega) _ _ r]
    rfl
  | ⟨3, _⟩ =>
    refine (stand_read _ shapeCasts_S8192_S8192x1 r _).trans ?_
    show P0 (ix1 r) * (_ - _) = P0 (ix1 r) * (P1 (ix2 r 2) - P1 (ix2 r 3))
    rw [col_read P1 2 (by omega) _ _ r, col_read P1 3 (by omega) _ _ r]
    rfl
  | ⟨4, _⟩ =>
    refine (stand_read _ shapeCasts_S8192_S8192x1 r _).trans ?_
    show P0 (ix1 r) * _ - (Ideal.div (P2 (ix1 r)) (P3 (ix1 r)) + Ideal.div (P4 (ix1 r)) (P3 (ix1 r))) * _
          + Ideal.div (P4 (ix1 r)) (P5 (ix1 r)) * _
        = P0 (ix1 r) * P1 (ix2 r 3) - (Ideal.div (P2 (ix1 r)) (P3 (ix1 r)) + Ideal.div (P4 (ix1 r)) (P3 (ix1 r))) * P1 (ix2 r 4)
          + Ideal.div (P4 (ix1 r)) (P5 (ix1 r)) * P1 (ix2 r 5)
    rw [col_read P1 3 (by omega) _ _ r, col_read P1 4 (by omega) _ _ r, col_read P1 5 (by omega) _ _ r]
    rfl
  | ⟨5, _⟩ =>
    refine (stand_read _ shapeCasts_S8192_S8192x1 r _).trans ?_
    show Ideal.div (P4 (ix1 r)) (P3 (ix1 r)) * _ - Ideal.div (P4 (ix1 r)) (P5 (ix1 r)) * _
        = Ideal.div (P4 (ix1 r)) (P3 (ix1 r)) * P1 (ix2 r 4) - Ideal.div (P4 (ix1 r)) (P5 (ix1 r)) * P1 (ix2 r 5)
    rw [col_read P1 4 (by omega) _ _ r, col_read P1 5 (by omega) _ _ r]
    rfl

end Cert.KernelIdeal.Block

end
-- ==== Proof.KernelArray.lean ====
/-
  From blocks to the whole array. The grid has 512 points; at point `t` every window sits at block `t` along the
  rows (rows 8192·t … 8192·t + 8191) and, for the two six-column arrays, at block 0 along the columns. So row `r` of
  every block at point `t` is row 8192·t + r of its array, what point `t` writes back is block `t` of the
  specification's array `Pk.deriv` of the arguments, and the 512 blocks cover all 4194304 rows: row `n` lies in the
  block of point `n / 8192`. Hence the result array after the run is `Pk.deriv` of the arguments.
-/
import proofs.«145431_j5961414607270_1_alg».proof.Proof.KernelBlock

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a; rfl

/-- What the body leaves in the output block, at `(r, k)`: line `k` of the right-hand side at row `r` of the six input
    blocks (each load takes its whole block). -/
theorem out_at (x0 : Vec Ideal S8192x6 .f32) (x1 x2 x3 x4 x5 : Vec Ideal S8192 .f32) (r : Fin 8192) (k : Fin 6) :
    out0_6 x0 x1 x2 x3 x4 x5 (ix2 r k)
      = Pk.rate k (fun j => x0 (ix2 r j)) (x1 (ix1 r)) (x2 (ix1 r)) (x3 (ix1 r)) (x4 (ix1 r)) (x5 (ix1 r)) := by
  unfold out0_6
  refine (canon6_eq (View.ld x1 r0_1) (View.ld x0 r0_0) (View.ld x2 r0_1) (View.ld x4 r0_1) (View.ld x3 r0_1)
    (View.ld x5 r0_1) (ix2 r k)).trans ?_
  refine (Block.E6_at _ _ _ _ _ _ r k).trans ?_
  exact Pk.rate_congr rfl (fun j => congrFun (View.ld_unit_zero (S := S8192x6) zero_off2 _ x0) (ix2 r j))
    (congrFun (View.ld_unit_zero (S := S8192) zero_off1 _ x1) (ix1 r))
    (congrFun (View.ld_unit_zero (S := S8192) zero_off1 _ x2) (ix1 r))
    (congrFun (View.ld_unit_zero (S := S8192) zero_off1 _ x3) (ix1 r))
    (congrFun (View.ld_unit_zero (S := S8192) zero_off1 _ x4) (ix1 r))
    (congrFun (View.ld_unit_zero (S := S8192) zero_off1 _ x5) (ix1 r))

/-- The printed index maps, decided over the 512 points: along the rows every window is at block `t`; along the columns
    the two six-column windows are at block 0. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val ∧ win0_3.index t (0 : Fin 1) = t.val
    ∧ win0_4.index t (0 : Fin 1) = t.val ∧ win0_5.index t (0 : Fin 1) = t.val
    ∧ win0_6.index t (0 : Fin 2) = t.val ∧ win0_6.index t (1 : Fin 2) = 0 :=
  (by decide +kernel : ∀ t : Fin grid0.N, _)

/-- The specification's array of the arguments as the region finds them. -/
abbrev target (c : Dev nD) : S4194304x6.Idx → Elt Ideal .f32 :=
  Pk.deriv (V m c main_arg1) (V m c main_arg2) (V m c main_arg3) (V m c main_arg4) (V m c main_arg5) (V m c main_arg6)

/-- WHAT POINT `t` WRITES BACK is block `t` of the specification's array. -/
theorem flushed_eq (c : Dev nD) (t : Fin cfg0.N) :
    (dats m 0 c).flushed 6 t = ((cfg0.win 6).blk t).view.read (Elt Ideal) (target m c) := by
  rw [flushed6]
  obtain ⟨e00, e01, e1, e2, e3, e4, e5, e60, e61⟩ := idx_facts t
  funext j
  obtain ⟨r, k, rfl⟩ : ∃ (r : Fin 8192) (k : Fin 6), j = ix2 r k := ⟨j 0, j 1, eq_ix2 j⟩
  show out0_6 (iblk m c 0 t) (iblk m c 1 t) (iblk m c 2 t) (iblk m c 3 t) (iblk m c 4 t) (iblk m c 5 t) (ix2 r k)
      = target m c (((cfg0.win 6).blk t).view.emb (ix2 r k))
  refine (out_at (iblk m c 0 t) (iblk m c 1 t) (iblk m c 2 t) (iblk m c 3 t) (iblk m c 4 t) (iblk m c 5 t) r k).trans ?_
  refine Pk.rate_congr ?_ ?_ ?_ ?_ ?_ ?_ ?_
  · exact Fin.ext (by show k.val = win0_6.index t (1 : Fin 2) * 6 + 1 * k.val; omega)
  · intro j
    show V m c main_arg1 (((cfg0.win 0).blk t).view.emb (ix2 r j)) = V m c main_arg1 _
    refine congrArg (fun i => V m c main_arg1 i) (funext fun a => Fin.ext ?_)
    match a with
    | ⟨0, _⟩ => show win0_0.index t (0 : Fin 2) * 8192 + 1 * r.val = win0_6.index t (0 : Fin 2) * 8192 + 1 * r.val; omega
    | ⟨1, _⟩ => show win0_0.index t (1 : Fin 2) * 6 + 1 * j.val = j.val; omega
  · show V m c main_arg2 (((cfg0.win 1).blk t).view.emb (ix1 r)) = V m c main_arg2 _
    refine congrArg (fun i => V m c main_arg2 i) (funext fun a => Fin.ext ?_)
    match a with
    | ⟨0, _⟩ => show win0_1.index t (0 : Fin 1) * 8192 + 1 * r.val = win0_6.index t (0 : Fin 2) * 8192 + 1 * r.val; omega
  · show V m c main_arg3 (((cfg0.win 2).blk t).view.emb (ix1 r)) = V m c main_arg3 _
    refine congrArg (fun i => V m c main_arg3 i) (funext fun a => Fin.ext ?_)
    match a with
    | ⟨0, _⟩ => show win0_2.index t (0 : Fin 1) * 8192 + 1 * r.val = win0_6.index t (0 : Fin 2) * 8192 + 1 * r.val; omega
  · show V m c main_arg4 (((cfg0.win 3).blk t).view.emb (ix1 r)) = V m c main_arg4 _
    refine congrArg (fun i => V m c main_arg4 i) (funext fun a => Fin.ext ?_)
    match a with
    | ⟨0, _⟩ => show win0_3.index t (0 : Fin 1) * 8192 + 1 * r.val = win0_6.index t (0 : Fin 2) * 8192 + 1 * r.val; omega
  · show V m c main_arg5 (((cfg0.win 4).blk t).view.emb (ix1 r)) = V m c main_arg5 _
    refine congrArg (fun i => V m c main_arg5 i) (funext fun a => Fin.ext ?_)
    match a with
    | ⟨0, _⟩ => show win0_4.index t (0 : Fin 1) * 8192 + 1 * r.val = win0_6.index t (0 : Fin 2) * 8192 + 1 * r.val; omega
  · show V m c main_arg6 (((cfg0.win 5).blk t).view.emb (ix1 r)) = V m c main_arg6 _
    refine congrArg (fun i => V m c main_arg6 i) (funext fun a => Fin.ext ?_)
    match a with
    | ⟨0, _⟩ => show win0_5.index t (0 : Fin 1) * 8192 + 1 * r.val = win0_6.index t (0 : Fin 2) * 8192 + 1 * r.val; omega

/-- An index of the result array is in point `t`'s block iff each coordinate is in the block's range on its axis. -/
theorem mem_blk (t : Fin cfg0.N) (i : S4194304x6.Idx) :
    i ∈ ((cfg0.win 6).blk t).view.set ↔ ∀ a : Fin 2, win0_6.index t a * S8192x6.size a ≤ (i a).val
      ∧ (i a).val < win0_6.index t a * S8192x6.size a + S8192x6.size a := by
  show i ∈ ((View.whole main_v0).slice (win0_6.rect t)).set ↔ _
  rw [View.set_slice_whole, Rect.mem_set_unit]
  exact Iff.rfl

/-- THE COVER: row `n` lies in the block of point `n / 8192`. -/
theorem cover (i : S4194304x6.Idx) :
    ∃ t : Fin cfg0.N, (cfg0.win 6).flush t = true ∧ i ∈ ((cfg0.win 6).blk t).view.set := by
  have hi0 : (i 0).val < 4194304 := (i 0).isLt
  have hi1 : (i 1).val < 6 := (i 1).isLt
  obtain ⟨t, ht⟩ : ∃ t : Fin cfg0.N, t.val = (i 0).val / 8192 :=
    ⟨⟨(i 0).val / 8192, by show (i 0).val / 8192 < 512; omega⟩, rfl⟩
  obtain ⟨-, -, -, -, -, -, -, e60, e61⟩ := idx_facts t
  refine ⟨t, flush0_6 t, ?_⟩
  rw [mem_blk]
  intro a
  match a with
  | ⟨0, _⟩ =>
    show win0_6.index t (0 : Fin 2) * 8192 ≤ (i 0).val ∧ (i 0).val < win0_6.index t (0 : Fin 2) * 8192 + 8192
    omega
  | ⟨1, _⟩ =>
    show win0_6.index t (1 : Fin 2) * 6 ≤ (i 1).val ∧ (i 1).val < win0_6.index t (1 : Fin 2) * 6 + 6
    omega

/-- THE RESULT ARRAY after the run is the specification's array of the arguments. -/
theorem final (c : Dev nD) : (dats m 0 c).arrAt 6 cfg0.N = target m c :=
  (dats m 0 c).arrAt_eq_of_cover 6 (target m c) (fun t _ => flushed_eq m c t) cover

/-- The run: every weakly fair execution ends with the result at the specification's array of the arguments as
    launched, the arguments unchanged. -/
theorem run : θ_run defs (onTc (τ := τ) (main (F := Ideal))) ⟨m, fun _ => 0, ρ⟩ fun r => ∀ c : Dev nD,
      r.2.mem ((c : Thread nD τ).loc main_v0)
        = Pk.deriv (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.Reference.lean ====
/-
  The reference, entry by entry. It slices the six columns off the whole state array, forms the six lines of the
  right-hand side as whole-array vectors (4194304 entries each), stands each up as a one-column array and joins the six
  columns. So its result at `(r, k)` is line `k` at row `r` of the arguments: `Pk.deriv`. It writes the first line with a
  negation, as the specification does.
-/
import proofs.«145431_j5961414607270_1_alg».proof.Proof.Gen.ReferenceIdeal.Read
import proofs.«145431_j5961414607270_1_alg».proof.Proof.Rate

noncomputable section

namespace Cert.ReferenceIdeal.Whole

open Cert.ReferenceIdeal Cert.ReferenceIdeal.Gen Cert.ReferenceIdeal.Read Idealize.ShloMosaic Idealize.ShloMosaic.ValueIdx

/-- The state array and a parameter array, at the exact-arithmetic instance. -/
abbrev Arr2 : Type := (⟨S4194304x6, .f32⟩ : BufTy).Contents (Elt Ideal)
abbrev Arr1 : Type := (⟨S4194304, .f32⟩ : BufTy).Contents (Elt Ideal)

/-! ## A column of the state, flattened, read at a row -/

theorem col0 (x1 : Arr2) (r : Fin 4194304) : val_main_v1 (F := Ideal) x1 (ix1 r) = x1 (ix2 r (0 : Fin 6)) := by
  rw [val_main_v1_apply, val_main_v0_apply]
  exact congrArg x1 (funext fun a => Fin.ext (match a with | ⟨0, _⟩ => Nat.div_one _ | ⟨1, _⟩ => rfl))
theorem col1 (x1 : Arr2) (r : Fin 4194304) : val_main_v3 (F := Ideal) x1 (ix1 r) = x1 (ix2 r (1 : Fin 6)) := by
  rw [val_main_v3_apply, val_main_v2_apply]
  exact congrArg x1 (funext fun a => Fin.ext (match a with | ⟨0, _⟩ => Nat.div_one _ | ⟨1, _⟩ => rfl))
theorem col2 (x1 : Arr2) (r : Fin 4194304) : val_main_v5 (F := Ideal) x1 (ix1 r) = x1 (ix2 r (2 : Fin 6)) := by
  rw [val_main_v5_apply, val_main_v4_apply]
  exact congrArg x1 (funext fun a => Fin.ext (match a with | ⟨0, _⟩ => Nat.div_one _ | ⟨1, _⟩ => rfl))
theorem col3 (x1 : Arr2) (r : Fin 4194304) : val_main_v7 (F := Ideal) x1 (ix1 r) = x1 (ix2 r (3 : Fin 6)) := by
  rw [val_main_v7_apply, val_main_v6_apply]
  exact congrArg x1 (funext fun a => Fin.ext (match a with | ⟨0, _⟩ => Nat.div_one _ | ⟨1, _⟩ => rfl))
theorem col4 (x1 : Arr2) (r : Fin 4194304) : val_main_v9 (F := Ideal) x1 (ix1 r) = x1 (ix2 r (4 : Fin 6)) := by
  rw [val_main_v9_apply, val_main_v8_apply]
  exact congrArg x1 (funext fun a => Fin.ext (match a with | ⟨0, _⟩ => Nat.div_one _ | ⟨1, _⟩ => rfl))
theorem col5 (x1 : Arr2) (r : Fin 4194304) : val_main_v11 (F := Ideal) x1 (ix1 r) = x1 (ix2 r (5 : Fin 6)) := by
  rw [val_main_v11_apply, val_main_v10_apply]
  exact congrArg x1 (funext fun a => Fin.ext (match a with | ⟨0, _⟩ => Nat.div_one _ | ⟨1, _⟩ => rfl))

/-! ## The six lines as whole vectors, read at a row -/

theorem line0 (x1 : Arr2) (x2 : Arr1) (r : Fin 4194304) :
    val_main_v16 (F := Ideal) x1 x2 (ix1 r) = (-(x2 (ix1 r) : EReal)) * (x1 (ix2 r (0 : Fin 6)) : EReal) := by
  show (-(x2 (ix1 r) : EReal)) * (val_main_v1 (F := Ideal) x1 (ix1 r) : EReal) = _
  rw [col0]
theorem line1 (x1 : Arr2) (x2 : Arr1) (r : Fin 4194304) :
    val_main_v18 (F := Ideal) x1 x2 (ix1 r)
      = (x2 (ix1 r) : EReal) * ((x1 (ix2 r (0 : Fin 6)) : EReal) - (x1 (ix2 r (1 : Fin 6)) : EReal)) := by
  show (x2 (ix1 r) : EReal) * ((val_main_v1 (F := Ideal) x1 (ix1 r) : EReal) - (val_main_v3 (F := Ideal) x1 (ix1 r) : EReal)) = _
  rw [col0, col1]
theorem line2 (x1 : Arr2) (x2 : Arr1) (r : Fin 4194304) :
    val_main_v20 (F := Ideal) x1 x2 (ix1 r)
      = (x2 (ix1 r) : EReal) * ((x1 (ix2 r (1 : Fin 6)) : EReal) - (x1 (ix2 r (2 : Fin 6)) : EReal)) := by
  show (x2 (ix1 r) : EReal) * ((val_main_v3 (F := Ideal) x1 (ix1 r) : EReal) - (val_main_v5 (F := Ideal) x1 (ix1 r) : EReal)) = _
  rw [col1, col2]
theorem line3 (x1 : Arr2) (x2 : Arr1) (r : Fin 4194304) :
    val_main_v22 (F := Ideal) x1 x2 (ix1 r)
      = (x2 (ix1 r) : EReal) * ((x1 (ix2 r (2 : Fin 6)) : EReal) - (x1 (ix2 r (3 : Fin 6)) : EReal)) := by
  show (x2 (ix1 r) : EReal) * ((val_main_v5 (F := Ideal) x1 (ix1 r) : EReal) - (val_main_v7 (F := Ideal) x1 (ix1 r) : EReal)) = _
  rw [col2, col3]
theorem line4 (x1 : Arr2) (x2 x3 x4 x5 x6 : Arr1) (r : Fin 4194304) :
    val_main_v28 (F := Ideal) x1 x2 x3 x4 x5 x6 (ix1 r)
      = (x2 (ix1 r) : EReal) * (x1 (ix2 r (3 : Fin 6)) : EReal)
        - (Ideal.div (x3 (ix1 r)) (x5 (ix1 r)) + Ideal.div (x4 (ix1 r)) (x5 (ix1 r))) * (x1 (ix2 r (4 : Fin 6)) : EReal)
        + Ideal.div (x4 (ix1 r)) (x6 (ix1 r)) * (x1 (ix2 r (5 : Fin 6)) : EReal) := by
  show (x2 (ix1 r) : EReal) * (val_main_v7 (F := Ideal) x1 (ix1 r) : EReal)
        - (Ideal.div (x3 (ix1 r)) (x5 (ix1 r)) + Ideal.div (x4 (ix1 r)) (x5 (ix1 r))) * (val_main_v9 (F := Ideal) x1 (ix1 r) : EReal)
        + Ideal.div (x4 (ix1 r)) (x6 (ix1 r)) * (val_main_v11 (F := Ideal) x1 (ix1 r) : EReal) = _
  rw [col3, col4, col5]
theorem line5 (x1 : Arr2) (x4 x5 x6 : Arr1) (r : Fin 4194304) :
    val_main_v31 (F := Ideal) x1 x4 x5 x6 (ix1 r)
      = Ideal.div (x4 (ix1 r)) (x5 (ix1 r)) * (x1 (ix2 r (4 : Fin 6)) : EReal)
        - Ideal.div (x4 (ix1 r)) (x6 (ix1 r)) * (x1 (ix2 r (5 : Fin 6)) : EReal) := by
  show Ideal.div (x4 (ix1 r)) (x5 (ix1 r)) * (val_main_v9 (F := Ideal) x1 (ix1 r) : EReal)
        - Ideal.div (x4 (ix1 r)) (x6 (ix1 r)) * (val_main_v11 (F := Ideal) x1 (ix1 r) : EReal) = _
  rw [col4, col5]

/-! ## The columns joined -/

/-- A vector stood up as a one-column array is read at `(r, 0)` where the vector is read at `r`. -/
theorem e32 (r : Fin 4194304) : idx_main_v32 (ix2 r (0 : Fin 1)) = ix1 r := funext fun a => match a with | ⟨0, _⟩ => rfl
theorem e33 (r : Fin 4194304) : idx_main_v33 (ix2 r (0 : Fin 1)) = ix1 r := funext fun a => match a with | ⟨0, _⟩ => rfl
theorem e34 (r : Fin 4194304) : idx_main_v34 (ix2 r (0 : Fin 1)) = ix1 r := funext fun a => match a with | ⟨0, _⟩ => rfl
theorem e35 (r : Fin 4194304) : idx_main_v35 (ix2 r (0 : Fin 1)) = ix1 r := funext fun a => match a with | ⟨0, _⟩ => rfl
theorem e36 (r : Fin 4194304) : idx_main_v36 (ix2 r (0 : Fin 1)) = ix1 r := funext fun a => match a with | ⟨0, _⟩ => rfl
theorem e37 (r : Fin 4194304) : idx_main_v37 (ix2 r (0 : Fin 1)) = ix1 r := funext fun a => match a with | ⟨0, _⟩ => rfl

/-- The six one-column arrays the reference joins, by column number. -/
abbrev cols (x1 : Arr2) (x2 x3 x4 x5 x6 : Arr1) : Fin 6 → (S4194304x1.Idx → Elt Ideal .f32) := fun n => match n with
  | ⟨0, _⟩ => val_main_v32 (F := Ideal) x1 x2
  | ⟨1, _⟩ => val_main_v33 (F := Ideal) x1 x2
  | ⟨2, _⟩ => val_main_v34 (F := Ideal) x1 x2
  | ⟨3, _⟩ => val_main_v35 (F := Ideal) x1 x2
  | ⟨4, _⟩ => val_main_v36 (F := Ideal) x1 x2 x3 x4 x5 x6
  | ⟨5, _⟩ => val_main_v37 (F := Ideal) x1 x4 x5 x6

/-- Column `k` at row `r` is line `k` of the right-hand side at row `r` of the arguments. -/
theorem cols_at (x1 : Arr2) (x2 x3 x4 x5 x6 : Arr1) (r : Fin 4194304) (k : Fin 6) :
    cols x1 x2 x3 x4 x5 x6 k (ix2 r (0 : Fin 1))
      = Pk.rate k (fun j => x1 (ix2 r j)) (x2 (ix1 r)) (x3 (ix1 r)) (x4 (ix1 r)) (x5 (ix1 r)) (x6 (ix1 r)) := by
  match k with
  | ⟨0, _⟩ => show val_main_v32 (F := Ideal) x1 x2 (ix2 r (0 : Fin 1)) = _; rw [val_main_v32_apply, e32, line0]; rfl
  | ⟨1, _⟩ => show val_main_v33 (F := Ideal) x1 x2 (ix2 r (0 : Fin 1)) = _; rw [val_main_v33_apply, e33, line1]; rfl
  | ⟨2, _⟩ => show val_main_v34 (F := Ideal) x1 x2 (ix2 r (0 : Fin 1)) = _; rw [val_main_v34_apply, e34, line2]; rfl
  | ⟨3, _⟩ => show val_main_v35 (F := Ideal) x1 x2 (ix2 r (0 : Fin 1)) = _; rw [val_main_v35_apply, e35, line3]; rfl
  | ⟨4, _⟩ => show val_main_v36 (F := Ideal) x1 x2 x3 x4 x5 x6 (ix2 r (0 : Fin 1)) = _; rw [val_main_v36_apply, e36, line4]; rfl
  | ⟨5, _⟩ => show val_main_v37 (F := Ideal) x1 x4 x5 x6 (ix2 r (0 : Fin 1)) = _; rw [val_main_v37_apply, e37, line5]; rfl

/-- THE REFERENCE'S RESULT is the specification's array: the join of six one-column arrays read at `(r, k)` is column
    `k` at `(r, 0)`. -/
theorem result_eq_deriv (x1 : Arr2) (x2 x3 x4 x5 x6 : Arr1) :
    val_main_v38 (F := Ideal) x1 x2 x3 x4 x5 x6 = Pk.deriv x1 x2 x3 x4 x5 x6 := by
  funext i
  obtain ⟨r, k, rfl⟩ : ∃ (r : Fin 4194304) (k : Fin 6), i = ix2 r k := ⟨i 0, i 1, eq_ix2 i⟩
  rw [Pk.deriv_ix2]
  unfold val_main_v38
  show concatenate S4194304x6 1 (List.ofFn fun n : Fin 6 => (⟨S4194304x1, cols x1 x2 x3 x4 x5 x6 n⟩ : (s : Shape) × (s.Idx → _))) _ (ix2 r k) = _
  refine (concatenate_ofFn_apply (t := S4194304x6) (s₁ := S4194304x1) (1 : Fin 2) (cols x1 x2 x3 x4 x5 x6) _ rfl 1 rfl
    (ix2 r k) k (by show k.val / 1 = k.val; omega) (ix2 r (0 : Fin 1)) (by show 0 = k.val % 1; omega)
    (fun b hb => match b with | ⟨0, _⟩ => rfl | ⟨1, _⟩ => absurd rfl hb)).trans ?_
  exact cols_at x1 x2 x3 x4 x5 x6 r k

end Cert.ReferenceIdeal.Whole

end
-- ==== Proof.lean ====
/-
  The kernel and the reference compute the same array. Both take a state array of 4194304 rows of six compartment
  amounts and five parameter arrays with one entry per row, and return, row by row, the six lines of the compartment
  model's right-hand side (Proof/Rate.lean: `Pk.rate`, and the whole array `Pk.deriv`).

  The kernel does it 8192 rows at a time over 512 grid points: what it stores at `(r, k)` of a block is line `k` at row
  `r` of the loaded blocks (Proof/KernelBlock.lean), block `t` holds rows 8192·t … 8192·t + 8191 of every array, and the
  512 blocks cover the result, so the result array is `Pk.deriv` of the arguments (Proof/KernelArray.lean). The reference
  slices the six columns off the whole state, forms the six lines as whole vectors and joins them as columns: again
  `Pk.deriv` of the arguments (Proof/Reference.lean). The two texts group every sum and product the same way; they
  differ only in writing the first line's `-ktr` as `0 - ktr` (kernel) or as a negation (reference), which agree on
  every extended real. So the equality needs no finiteness of the inputs.

  The three runs terminate with the arguments unchanged (the frames), and the idealized kernel is the kernel's own text
  read over the extended reals (no rewrite was applied, so there is nothing to preserve).
-/
import proofs.«145431_j5961414607270_1_alg».proof.Defs
import proofs.«145431_j5961414607270_1_alg».proof.Proof.Gen.Kernel
import proofs.«145431_j5961414607270_1_alg».proof.Proof.Gen.Kernel.Skeleton
import proofs.«145431_j5961414607270_1_alg».proof.Proof.Gen.Kernel.Launch
import proofs.«145431_j5961414607270_1_alg».proof.Proof.Gen.Kernel.Points
import proofs.«145431_j5961414607270_1_alg».proof.Proof.Gen.Kernel.Frame
import proofs.«145431_j5961414607270_1_alg».proof.Proof.Gen.KernelIdeal
import proofs.«145431_j5961414607270_1_alg».proof.Proof.Gen.KernelIdeal.Skeleton
import proofs.«145431_j5961414607270_1_alg».proof.Proof.Gen.KernelIdeal.Launch
import proofs.«145431_j5961414607270_1_alg».proof.Proof.Gen.KernelIdeal.Points
import proofs.«145431_j5961414607270_1_alg».proof.Proof.Gen.KernelIdeal.Frame
import proofs.«145431_j5961414607270_1_alg».proof.Proof.Gen.ReferenceIdeal
import proofs.«145431_j5961414607270_1_alg».proof.Proof.Gen.Pre_finite_inputs
import proofs.«145431_j5961414607270_1_alg».proof.Proof.Gen.KernelIdeal.Value
import proofs.«145431_j5961414607270_1_alg».proof.Proof.Gen.ReferenceIdeal.Run
import proofs.«145431_j5961414607270_1_alg».proof.Proof.Gen.ReferenceIdeal.Read
import proofs.«145431_j5961414607270_1_alg».proof.Proof.KernelArray
import proofs.«145431_j5961414607270_1_alg».proof.Proof.Reference
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at `Pk.deriv` of arguments that agree: the kernel's by the cover of its blocks, the
    reference's by reading its last operation, the join of the six columns. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq _ _ _ _ _ _).trans ?_
  refine (Cert.ReferenceIdeal.Whole.result_eq_deriv _ _ _ _ _ _).trans ?_
  rw [(hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
